-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : FVec F S16384x2 .f32) (main_arg1 : FVec F S16384x2 .f32) : IVec S_ 1 :=
  let main_v0 : FVec F S16384x2 .f32 := Host.absf main_arg0
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  let main_v4 : FVec F S16384x2 .f32 := Host.absf main_arg1
  let main_cst_0 : FVec F S_ .f32 := constant S_ .f32 0x7F800000#32
  let main_v5 : FVec F S16384x2 .f32 := broadcastInDim S16384x2 ![] bcast_S_S16384x2 main_cst_0
  let main_v6 : IVec S16384x2 1 := cmpf .olt main_v4 main_v5
  let main_c_1 : IVec S_ 1 := constantI S_ 1 1#1
  let main_v7 : IVec S_ 1 := (fun x v => Host.reduce IntOp.andi x v reducesTo_S16384x2_S_d0_1 h_S_) main_v6 main_c_1
  let main_v8 : IVec S_ 1 := andi main_v3 main_v7
  main_v8
-- ==== Kernel.lean ====
abbrev S16384x2 : Shape := ⟨2, ![16384, 2]⟩
abbrev S2x16384 : Shape := ⟨2, ![2, 16384]⟩
abbrev S16384x1 : Shape := ⟨2, ![16384, 1]⟩
abbrev S1024x2 : Shape := ⟨2, ![1024, 2]⟩
abbrev S2x2048 : Shape := ⟨2, ![2, 2048]⟩
abbrev S1024x1 : Shape := ⟨2, ![1024, 1]⟩
abbrev S1024 : Shape := ⟨1, ![1024]⟩
abbrev S1x2048 : Shape := ⟨2, ![1, 2048]⟩
abbrev S1024x2048 : Shape := ⟨2, ![1024, 2048]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S16384x2, .f32⟩
  | .hbm, ⟨1, _⟩ => ⟨S16384x2, .f32⟩
  | .hbm, ⟨2, _⟩ => ⟨S2x16384, .f32⟩
  | .hbm, ⟨3, _⟩ => ⟨S16384x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1024x2, .f32⟩
  | .local _ .vmem, ⟨1, _⟩ => ⟨S1024x2, .f32⟩
  | .local _ .vmem, ⟨2, _⟩ => ⟨S2x2048, .f32⟩
  | .local _ .vmem, ⟨3, _⟩ => ⟨S2x2048, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_10 : BitVec 32 := 0#32
  let v38 : BitVec 1 := Scalar.cmpi .ne v37 c0_i32_10
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S16384x2_S2x16384_1_0 : S16384x2.Transposes [1, 0] S2x16384
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2_S1024x2_0_0 : ∀ a, (![0, 0] : Fin 2 → Nat) a + S1024x2.size a ≤ S1024x2.size a
  h_S1024x2 : 0 < S1024x2.numel
  inb_S2x2048_S2x2048_0_0 : ∀ a, (![0, 0] : Fin 2 → Nat) a + S2x2048.size a ≤ S2x2048.size a
  h_S2x2048 : 0 < S2x2048.numel
  shapeCasts_S2x2048_S2x2048 : S2x2048.ShapeCasts S2x2048
  reduces_S1024x2_S1024 : S1024x2.Reduces [1] S1024
  shapeCasts_S1024_S1024x1 : S1024.ShapeCasts S1024x1
  slices_S2x2048_o0_0_S1x2048 : S2x2048.Slices ![0, 0] S1x2048
  slices_S2x2048_o1_0_S1x2048 : S2x2048.Slices ![1, 0] S1x2048
  slices_S1024x2_o0_0_S1024x1 : S1024x2.Slices ![0, 0] S1024x1
  broadcasts_S1024x1_S1024x2048 : S1024x1.Broadcasts S1024x2048
  broadcasts_S1x2048_S1024x2048 : S1x2048.Broadcasts S1024x2048
  slices_S1024x2_o0_1_S1024x1 : S1024x2.Slices ![0, 1] S1024x1
  reduces_S1024x2048_S1024 : S1024x2048.Reduces [1] S1024
  reducesTo_S16384x1_S_d0_1 : S16384x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S16384x2.size a
  hwx0_0 : ∀ i : grid0.Coords, EltTy.bits .f32 = 32 ∨ (Rect.block (s := S16384x2) S1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048.size a ≤ S2x16384.size a
  hwx0_1 : ∀ i : grid0.Coords, EltTy.bits .f32 = 32 ∨ (Rect.block (s := S2x16384) S2x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)

variable [Facts₀]

abbrev win0_0 : Pipeline.Window sig grid0 :=
  Pipeline.Window.ofSpec (Memref.whole main_arg0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2x16384 : Shape := ⟨2, ![2, 16384]⟩

abbrev nBuf : Space → Nat
  | .hbm => 26
  | .vmem => 0
  | .smem => 0
  | _ => 0

abbrev bufTy : (tb : Table) → Fin (tcTables nBuf tb) → BufTy
  | .hbm, ⟨0, _⟩ => ⟨S16384x2, .f32⟩
  | .hbm, ⟨1, _⟩ => ⟨S16384x2, .f32⟩
  | .hbm, ⟨2, _⟩ => ⟨S16384x2, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x2, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S2x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S16384x2_S16384_d1 : S16384x2.ReducesTo [1] S16384
  h_S_ : 0 < S_.numel
  bcast_S16384_S16384x1_0 : S16384.BroadcastsInDim S16384x1 (![0] : Fin 1 → Fin S16384x1.rank)
  transposes_S16384x1_S1x16384_1_0 : S16384x1.Transposes [1, 0] S1x16384
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x2_S2x16384_1_0 : S16384x2.Transposes [1, 0] S2x16384
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x2_S2x16384_S16384x16384_1_0_0_1_n_n_wf : DotDims.WF S16384x2 S2x16384 S16384x16384 [1] [0] [0] [1] [] []

variable [Facts₀]

def dot_S16384x2_S2x16384_S16384x16384_1_0_0_1_n_n : DotDims S16384x2 S2x16384 S16384x16384 where
  lhsContracting := [1]
  rhsContracting := [0]
  lhsNonContracting := [0]
  rhsNonContracting := [1]
  lhsBatch := []
  rhsBatch := []
  wf := dot_S16384x2_S2x16384_S16384x16384_1_0_0_1_n_n_wf

class Facts : Prop extends Facts₀ where

variable [Facts]
-- ==== Proof.Pieces.lean ====
/-
  What one grid point leaves behind, as values.

  A grid point (i, j) works on row block i and column block j and keeps a running minimum per row in a scratch column
  that lives across the column steps of one row block:
    * at the first column step (j = 0) the scratch is reset to +∞ and then updated, so it ends at
        update x y (+∞ column);
    * at a middle step it ends at  update x y (what the step before left);
    * at the last column step (j = 7) it is updated the same way and then copied, as it then stands, into the output
      block — so both the scratch and the output block end at  update x y (what the step before left).
  Here `update` is the body's one arithmetic payload and `x`, `y` the point's input blocks.  Each statement reads the
  stores the run recorded back through the whole buffer they cover.
-/
import proofs.«163027_j54537494724893_1_alg».proof.Proof.Gen.KernelIdeal.Frame
import Idealize.ShloMosaic.Lib.Pipeline.Value
import Idealize.ShloMosaic.Lib.Tactic

set_option maxRecDepth 16384

noncomputable section
namespace Cert.NearestMean
open Idealize.ShloMosaic Idealize.ShloMosaic.TcCoe Idealize.ShloMosaic.Tactic Idealize.SL.Sem
open Cert.KernelIdeal Cert.KernelIdeal.Gen

variable {F : FTy → Type} [FloatOps F]

/-- The offsets of a store that covers its whole buffer. -/
theorem hz : (![0, 0] : Fin 2 → Nat) = fun _ => 0 := funext fun a => by fin_cases a <;> rfl

/-- First column step: the scratch ends at the update of the +∞ column. -/
theorem scratch_first (c : Dev nD) (i : grid0.Coords) (arg2 : Memref sig .tc .vmem S1024x2 .f32) (harg2 : arg2.IsWhole) (arg3 : Memref sig .tc .vmem S2x2048 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x2 .f32) (x1 : Vec F S2x2048 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg5.read_unread, View.ld_unit_zero (S := S1024x2) hz,
    View.ld_unit_zero (S := S2x2048) hz, View.ld_unit_zero (S := S1024x1) hz]

/-- A middle column step: the scratch ends at the update of what the step before left. -/
theorem scratch_middle (c : Dev nD) (i : grid0.Coords) (arg2 : Memref sig .tc .vmem S1024x2 .f32) (harg2 : arg2.IsWhole) (arg3 : Memref sig .tc .vmem S2x2048 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x2 .f32) (x1 : Vec F S2x2048 .f32) (xs0 : Vec F S1024x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S1024x2) hz,
    View.ld_unit_zero (S := S2x2048) hz, View.ld_unit_zero (S := S1024x1) hz]

/-- The last column step: the scratch ends at the update of what the step before left, -/
theorem scratch_last (c : Dev nD) (i : grid0.Coords) (arg2 : Memref sig .tc .vmem S1024x2 .f32) (harg2 : arg2.IsWhole) (arg3 : Memref sig .tc .vmem S2x2048 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x2 .f32) (x1 : Vec F S2x2048 .f32) (xs0 : Vec F S1024x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S1024x2) hz,
    View.ld_unit_zero (S := S2x2048) hz, View.ld_unit_zero (S := S1024x1) hz]

/-- and the output block holds the same column: the scratch read back after its update. -/
theorem out_last (c : Dev nD) (i : grid0.Coords) (arg2 : Memref sig .tc .vmem S1024x2 .f32) (harg2 : arg2.IsWhole) (arg3 : Memref sig .tc .vmem S2x2048 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x2 .f32) (x1 : Vec F S2x2048 .f32) (xs0 : Vec F S1024x1 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1024x1) _ hz]
  simp only [View.readAt_eq_ld, harg2.read_unread, harg3.read_unread, harg5.read_unread, View.ld_unit_zero (S := S1024x2) hz,
    View.ld_unit_zero (S := S2x2048) hz, View.ld_unit_zero (S := S1024x1) hz]

end Cert.NearestMean

end
-- ==== Proof.Spec.lean ====
/-
  The mathematics both programs compute, over the extended reals.

  Two arrays `a`, `b` of 16384 planar points.  For a point `a r` and a point `b c` the squared distance is written in
  its expanded form  |a r|² + |b c|² − 2·⟨a r, b c⟩  (each norm and the inner product a two-term sum).  Row `r`'s
  nearest-neighbour value is the minimum of that over all `c`, taken as a fold of `min` from +∞; the result is the sum
  of the 16384 row minima, from zero, divided by 16384.

  A fold of `min` is determined by its lower bounds (`y ≤ fold ↔ y ≤ start ∧ ∀ c, y ≤ f c`), so the minimum over the
  first `n` columns can be advanced a block of 2048 columns at a time: `minBelow_block`.  That is the law that joins a
  column-tiled running minimum to the one-pass minimum; nothing here needs the entries to be finite.
-/
import Idealize.ShloMosaic.PureOps.Ideal.Laws
import Idealize.ShloMosaic.Lib.ValueIdx

noncomputable section

namespace Cert.NearestMean

open Idealize.ShloMosaic Idealize.ShloMosaic.ValueIdx

/-- An array of 16384 points of the plane: entry `(r, k)` is coordinate `k` of point `r`. -/
abbrev Pts : Type := (⟨2, ![16384, 2]⟩ : Shape).Idx → EReal
/-- A block of 1024 consecutive points, laid out as the array is. -/
abbrev RowBlk : Type := (⟨2, ![1024, 2]⟩ : Shape).Idx → EReal
/-- A block of 2048 consecutive points, transposed: entry `(k, q)` is coordinate `k` of the block's point `q`. -/
abbrev ColBlk : Type := (⟨2, ![2, 2048]⟩ : Shape).Idx → EReal

/-- The four float constants the programs share, as the extended reals their patterns denote. -/
abbrev posInf : EReal := Ideal.ofBits .f32 0x7F800000#32
abbrev two : EReal := Ideal.ofBits .f32 0x40000000#32
abbrev zero : EReal := Ideal.ofBits .f32 0x00000000#32
abbrev count : EReal := Ideal.ofBits .f32 0x46800000#32

/-- |a r|². -/
def sqNorm (a : Pts) (r : Fin 16384) : EReal :=
  a (ix2 r (0 : Fin 2)) * a (ix2 r (0 : Fin 2)) + a (ix2 r (1 : Fin 2)) * a (ix2 r (1 : Fin 2))

/-- ⟨a r, b c⟩. -/
def inner (a b : Pts) (r c : Fin 16384) : EReal :=
  a (ix2 r (0 : Fin 2)) * b (ix2 c (0 : Fin 2)) + a (ix2 r (1 : Fin 2)) * b (ix2 c (1 : Fin 2))

/-- The expanded squared distance between `a r` and `b c`. -/
def dist (a b : Pts) (r c : Fin 16384) : EReal := (sqNorm a r + sqNorm b c) - two * inner a b r c

/-- The same expression over one block of rows and one transposed block of columns. -/
def tileDist (x : RowBlk) (y : ColBlk) (p : Fin 1024) (q : Fin 2048) : EReal :=
  ((x (ix2 p (0 : Fin 2)) * x (ix2 p (0 : Fin 2)) + x (ix2 p (1 : Fin 2)) * x (ix2 p (1 : Fin 2)))
      + (y (ix2 (0 : Fin 2) q) * y (ix2 (0 : Fin 2) q) + y (ix2 (1 : Fin 2) q) * y (ix2 (1 : Fin 2) q)))
    - two * (x (ix2 p (0 : Fin 2)) * y (ix2 (0 : Fin 2) q) + x (ix2 p (1 : Fin 2)) * y (ix2 (1 : Fin 2) q))

/-- A block's expression is the arrays' at the rows and columns the block holds. -/
theorem tileDist_eq (a b : Pts) (x : RowBlk) (y : ColBlk) (r c : Fin 16384) (p : Fin 1024) (q : Fin 2048)
    (hx : ∀ k : Fin 2, x (ix2 p k) = a (ix2 r k)) (hy : ∀ k : Fin 2, y (ix2 k q) = b (ix2 c k)) :
    tileDist x y p q = dist a b r c := by
  unfold tileDist dist sqNorm inner
  rw [hx 0, hx 1, hy 0, hy 1]

/-- The minimum of `f` over the columns below `n`, folded from +∞. -/
def minBelow (f : Fin 16384 → EReal) (n : ℕ) : EReal :=
  (Finset.univ.filter fun c : Fin 16384 => c.val < n).fold min posInf f

/-- Row `r`'s minimum over every column. -/
def rowMin (a b : Pts) (r : Fin 16384) : EReal := Finset.univ.fold min posInf (dist a b r)

/-- The result: the row minima summed from zero, divided by the count. -/
def meanMin (a b : Pts) : (⟨0, ![]⟩ : Shape).Idx → EReal :=
  fun _ => Ideal.div (zero + ∑ r : Fin 16384, rowMin a b r) count

/-- Below column 0 there is nothing: the fold's start. -/
theorem minBelow_zero (f : Fin 16384 → EReal) : minBelow f 0 = posInf := by
  unfold minBelow
  rw [Finset.filter_false_of_mem fun c _ => Nat.not_lt_zero _]
  exact Finset.fold_empty

/-- Below column 16384 is every column. -/
theorem minBelow_all (f : Fin 16384 → EReal) : minBelow f 16384 = Finset.univ.fold min posInf f := by
  unfold minBelow
  rw [Finset.filter_true_of_mem fun c _ => c.isLt]

/-- One block of 2048 columns further: the minimum so far against the block's own minimum (itself folded from +∞). -/
theorem minBelow_block (f : Fin 16384 → EReal) (j : ℕ) (hj : 2048 * (j + 1) ≤ 16384) :
    minBelow f (2048 * (j + 1))
      = min (minBelow f (2048 * j))
          (Finset.univ.fold min posInf fun q : Fin 2048 => f ⟨2048 * j + q.val, by have := q.isLt; omega⟩) := by
  refine eq_of_forall_le_iff fun y => ?_
  unfold minBelow
  rw [le_min_iff, Finset.le_fold_min, Finset.le_fold_min, Finset.le_fold_min]
  constructor
  · rintro ⟨h0, h⟩
    refine ⟨⟨h0, fun c hc => h c ?_⟩, h0, fun q _ => h _ ?_⟩
    · simp only [Finset.mem_filter, Finset.mem_univ, true_and] at hc ⊢
      omega
    · simp only [Finset.mem_filter, Finset.mem_univ, true_and]
      have := q.isLt
      omega
  · rintro ⟨⟨h0, h1⟩, _, h2⟩
    refine ⟨h0, fun c hc => ?_⟩
    simp only [Finset.mem_filter, Finset.mem_univ, true_and] at hc
    by_cases hlt : c.val < 2048 * j
    · exact h1 c (by simp only [Finset.mem_filter, Finset.mem_univ, true_and]; exact hlt)
    · calc y ≤ f ⟨2048 * j + (c.val - 2048 * j), by omega⟩ := h2 ⟨c.val - 2048 * j, by omega⟩ (Finset.mem_univ _)
        _ = f c := congrArg f (Fin.ext (by show 2048 * j + (c.val - 2048 * j) = c.val; omega))

end Cert.NearestMean

end
-- ==== Proof.LibKeepdims.lean ====
/-
  A row reduction that keeps its axis (`jnp.sum(x, axis=-1, keepdims=True)`, a mean or a variance per row) lowers to
  a reduction to `[a]`, a shape cast to the column `[a, 1]`, and — when the row statistic meets the rows again — a
  broadcast of that column to `[a, b]`. Read at an index given by coordinates:
  • the column cast `[a] → [a, 1]` at `(i, u)` is the vector at `i` (the unit coordinate `u` carries nothing);
  • the column broadcast `[a, 1] → [a, b]` at `(p, c)` is the column at `(p, 0)`: every entry of row `p` sees the
    one statistic of row `p`.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRowReduce.lean ====
/-
  Row reductions of a rank-2 vector along its second axis, read at a row: the general facts a row-wise
  softmax, log-softmax or normalisation needs once both programs are down to one row.

  For a vector `x` of shape [R, D] and a row `r`:
  * the kernel's lane reduction with a maximum body is the fold of `max`, from the accumulator's value, over the
    row's entries `x (r, k)`, `k : Fin D` (`multiReduction_maximumf_row`);
  * the kernel's lane reduction with an add body is the sum of the row's entries (`multiReduction_add_row`);
  * the host's reduce with a maximum body is the same fold from the initial value (`hostReduce_maximumf_row`),
    and the host's sum is the initial value plus the sum of the row's entries (`hostReduceAdd_row`);
  * the f32 pattern of minus infinity is the bottom extended real (`ofBits_negInf_f32`), which `max` absorbs
    (`max_negInf_left`), so a maximum taken from minus infinity may be taken from it twice
    (`max_negInf_fold`).
  All at the ideal instance, where floats are extended reals.
-/
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

/-- Row `r` with column `k` put back on the reduced axis is the index (r, k). -/
theorem lift_row (h : (⟨2, ![R, D]⟩ : Shape).Reduces [1] (⟨1, ![R]⟩ : Shape)) (r : Fin R)
    (k : Fin ((⟨2, ![R, D]⟩ : Shape).size 1)) : h.lift (ix1 r) k = ix2 r (⟨k.val, k.isLt⟩ : Fin D) := by
  funext c; apply Fin.ext
  fin_cases c <;> rfl

/-- A lane reduction with a maximum body over the columns, at row `r`: the fold of `max` from the accumulator's
    value over that row's entries. -/
theorem multiReduction_maximumf_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.maximumf.neutral φ hφ) (r : Fin R) :
    multiReduction .maximumf [1] ⟨1, ![R]⟩ x acc h hφ hacc (ix1 r)
      = (Finset.univ : Finset (Fin D)).fold max (Ideal.ofBits φ acc) (fun k => x (ix2 r k)) := by
  rw [Ideal.multiReduction_maximumf_single]
  have hf : (x ∘ h.lift (ix1 r)) = fun k : Fin D => x (ix2 r k) := funext fun k => congrArg x (lift_row h r k)
  exact congrArg (fun f => Finset.fold max (Ideal.ofBits φ acc) f (Finset.univ : Finset (Fin D))) hf

/-- A lane reduction with an add body over the columns, at row `r`: the sum of that row's entries. -/
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (lift_row h r k)

/-- The host's reduce with a maximum body over the columns, at row `r`: the fold of `max` from the initial
    value over that row's entries. -/
theorem hostReduce_maximumf_row {u : Shape} (x : FVec Ideal ⟨2, ![R, D]⟩ φ) (init : u.Idx → Ideal φ)
    (h' : (⟨2, ![R, D]⟩ : Shape).ReducesTo [1] (⟨1, ![R]⟩ : Shape))
    (h : (⟨2, ![R, D]⟩ : Shape).Reduces [1] (⟨1, ![R]⟩ : Shape)) (hu : 0 < u.numel) (r : Fin R) :
    Host.reduce FloatOps.maximumf x init h' hu (ix1 r)
      = (Finset.univ : Finset (Fin D)).fold max (init (Shape.Idx.first hu)) (fun k => x (ix2 r k)) := by
  rw [Host.reduce_eq_fold_single FloatOps.maximumf x init h' h hu]
  have hf : (x ∘ h.lift (ix1 r)) = fun k : Fin D => x (ix2 r k) := funext fun k => congrArg x (lift_row h r k)
  exact congrArg (fun f => Finset.fold max (init (Shape.Idx.first hu)) f (Finset.univ : Finset (Fin D))) hf

/-- The host's sum over the columns, at row `r`: the initial value plus the sum of that row's entries. -/
theorem hostReduceAdd_row (x : (⟨2, ![R, D]⟩ : Shape).Idx → EReal) (init : EReal)
    (h' : (⟨2, ![R, D]⟩ : Shape).ReducesTo [1] (⟨1, ![R]⟩ : Shape))
    (h : (⟨2, ![R, D]⟩ : Shape).Reduces [1] (⟨1, ![R]⟩ : Shape)) (r : Fin R) :
    Ideal.hostReduceAdd h' x init (ix1 r) = init + ∑ k : Fin D, x (ix2 r k) := by
  rw [Ideal.hostReduceAdd_single h' h]
  exact congrArg (init + ·) (Finset.sum_congr rfl fun k _ => congrArg x (lift_row h r k))

/-- The f32 pattern of minus infinity denotes the bottom extended real. -/
theorem ofBits_negInf_f32 : Ideal.ofBits .f32 0xFF800000#32 = (⊥ : EReal) := by
  simp [Ideal.ofBits, Ideal.ieee]

/-- Minus infinity is neutral for `max`. -/
theorem max_negInf_left (y : EReal) : max (Ideal.ofBits .f32 0xFF800000#32) y = y := by
  rw [ofBits_negInf_f32]; exact max_eq_right bot_le

/-- A maximum taken from minus infinity, joined once more with minus infinity, is itself. -/
theorem max_negInf_fold (f : Fin D → EReal) :
    max (Ideal.ofBits .f32 0xFF800000#32) ((Finset.univ : Finset (Fin D)).fold max (Ideal.ofBits .f32 0xFF800000#32) f)
      = (Finset.univ : Finset (Fin D)).fold max (Ideal.ofBits .f32 0xFF800000#32) f :=
  max_negInf_left _

end Idealize.ShloMosaic.RowReduce

end
-- ==== Proof.TileValue.lean ====
/-
  One grid point's arithmetic, read at a row of the block.

  The body holds a block `x` of 1024 points (rows) and a transposed block `y` of 2048 points (columns).  It forms,
  for every row `p` and column `q`, the expanded squared distance  (|x p|² + |y q|²) − 2·(x p · y q)  — the row norms by a
  lane sum of the squares, the column norms and the inner products as explicit two-term sums over the two sliced
  coordinate rows — takes each row's minimum over the 2048 columns, folded from +∞, and joins it with the running
  minimum it found in the accumulator.  So the value it stores at row `p` is
      min (acc p) (min over q of tileDist x y p q),
  and the value the first column step starts from is +∞.
-/
import proofs.«163027_j54537494724893_1_alg».proof.Proof.Gen.KernelIdeal.Skeleton
import proofs.«163027_j54537494724893_1_alg».proof.Proof.Spec
import proofs.«163027_j54537494724893_1_alg».proof.Proof.LibKeepdims
import proofs.«163027_j54537494724893_1_alg».proof.Proof.LibRowReduce
import Idealize.ShloMosaic.Lib.Pipeline.Value
import Idealize.ShloMosaic.Lib.ValueLayout
import Idealize.ShloMosaic.PureOps.Reduce

noncomputable section

namespace Cert.NearestMean

open Idealize.ShloMosaic Idealize.ShloMosaic.ValueIdx Cert.KernelIdeal Cert.KernelIdeal.Gen

/-- A lane reduction with a minimum body over the columns, at row `r`: the fold of `min` from the accumulator's value
    over that row's entries. -/
theorem multiReduction_minimumf_row {φ : FTy} {R D : Nat} (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.minimumf.neutral φ hφ) (r : Fin R) :
    multiReduction .minimumf [1] ⟨1, ![R]⟩ x acc h hφ hacc (ix1 r)
      = (Finset.univ : Finset (Fin D)).fold min (Ideal.ofBits φ acc) (fun k => x (ix2 r k)) := by
  rw [multiReduction_minimumf_eq_fold, h.fold_filter_drop_single _ _ x (ix1 r)]
  have hf : (x ∘ h.lift (ix1 r)) = fun k : Fin D => x (ix2 r k) :=
    funext fun k => congrArg x (RowReduce.lift_row h r k)
  exact congrArg (fun f => Finset.fold min (Ideal.ofBits φ acc) f (Finset.univ : Finset (Fin D))) hf

/-- The two coordinate columns of a block of rows, and the two coordinate rows of a transposed block of columns. -/
theorem col0_apply (x : RowBlk) (h : (⟨2, ![1024, 2]⟩ : Shape).Slices ![0, 0] ⟨2, ![1024, 1]⟩) (p : Fin 1024) :
    extractStridedSlice ⟨2, ![1024, 1]⟩ ![0, 0] x h (ix2 p (0 : Fin 1)) = x (ix2 p (0 : Fin 2)) :=
  slice2_axis1_apply 0 x h p 0 0 rfl
theorem col1_apply (x : RowBlk) (h : (⟨2, ![1024, 2]⟩ : Shape).Slices ![0, 1] ⟨2, ![1024, 1]⟩) (p : Fin 1024) :
    extractStridedSlice ⟨2, ![1024, 1]⟩ ![0, 1] x h (ix2 p (0 : Fin 1)) = x (ix2 p (1 : Fin 2)) :=
  slice2_axis1_apply 1 x h p 0 1 rfl
theorem row0_apply (y : ColBlk) (h : (⟨2, ![2, 2048]⟩ : Shape).Slices ![0, 0] ⟨2, ![1, 2048]⟩) (q : Fin 2048) :
    extractStridedSlice ⟨2, ![1, 2048]⟩ ![0, 0] y h (ix2 (0 : Fin 1) q) = y (ix2 (0 : Fin 2) q) :=
  slice2_axis0_apply 0 y h 0 q 0 rfl
theorem row1_apply (y : ColBlk) (h : (⟨2, ![2, 2048]⟩ : Shape).Slices ![1, 0] ⟨2, ![1, 2048]⟩) (q : Fin 2048) :
    extractStridedSlice ⟨2, ![1, 2048]⟩ ![1, 0] y h (ix2 (0 : Fin 1) q) = y (ix2 (1 : Fin 2) q) :=
  slice2_axis0_apply 1 y h 0 q 1 rfl

/-- A row's squared norm as the body takes it: the lane sum of the row's two squares. -/
theorem rowSq_apply (x : RowBlk) (h : (⟨2, ![1024, 2]⟩ : Shape).Reduces [1] (⟨1, ![1024]⟩ : Shape)) (hφ : FKind.Formats .f32)
    (hacc : (0x00000000#32 : BitVec 32) = 0x00000000#32) (p : Fin 1024) :
    multiReduction .add [1] ⟨1, ![1024]⟩ (mulf (F := Ideal) (φ := .f32) x x) 0x00000000#32 h hφ hacc (ix1 p)
      = x (ix2 p (0 : Fin 2)) * x (ix2 p (0 : Fin 2)) + x (ix2 p (1 : Fin 2)) * x (ix2 p (1 : Fin 2)) :=
  (RowReduce.multiReduction_add_row (mulf (F := Ideal) (φ := .f32) x x) 0x00000000#32 h hφ hacc p).trans (Fin.sum_univ_two _)

/-- The accumulator's reset value: +∞ in every row. -/
theorem start_apply (p : Fin 1024) : k0_pay1 (F := Ideal) (ix2 p (0 : Fin 1)) = posInf := rfl

/-- What the body stores at row `p`: the running value it found there, joined with the row's minimum, folded from +∞
    over the block's 2048 columns, of the expanded squared distance. -/
theorem update_apply (x0 : Vec Ideal S1024x2 .f32) (x1 : Vec Ideal S2x2048 .f32) (acc : Vec Ideal S1024x1 .f32) (p : Fin 1024) :
    k0_pay2 x0 x1 acc (ix2 p (0 : Fin 1))
      = min (acc (ix2 p (0 : Fin 1))) (Finset.univ.fold min posInf (tileDist x0 x1 p)) := by
  unfold k0_pay2
  simp only [shapeCast_self]
  refine congrArg (min (acc (ix2 p (0 : Fin 1)))) ?_
  refine (Keepdims.shapeCast_a_a1_apply _ _ p 0).trans ?_
  refine (multiReduction_minimumf_row _ _ _ _ _ p).trans ?_
  refine congrArg (fun f => Finset.fold min posInf f (Finset.univ : Finset (Fin 2048))) (funext fun q => ?_)
  simp only [ValueIdx.subf_apply, ValueIdx.addf_apply, ValueIdx.mulf_apply, ValueIdx.broadcast_apply,
    Keepdims.broadcastTo_a1_ab_apply, broadcastTo_1b_ab_apply, Keepdims.shapeCast_a_a1_apply,
    col0_apply, col1_apply, row0_apply, row1_apply]
  unfold tileDist
  exact congrArg
    (fun s : EReal => s + (x1 (ix2 (0 : Fin 2) q) * x1 (ix2 (0 : Fin 2) q) + x1 (ix2 (1 : Fin 2) q) * x1 (ix2 (1 : Fin 2) q))
      - two * (x0 (ix2 p (0 : Fin 2)) * x1 (ix2 (0 : Fin 2) q) + x0 (ix2 p (1 : Fin 2)) * x1 (ix2 (1 : Fin 2) q)))
    (rowSq_apply x0 reduces_S1024x2_S1024 (.inl rfl) rfl p)

end Cert.NearestMean

end
-- ==== Proof.RunningMin.lean ====
/-
  The running minimum across the column steps of one row block.

  Grid point `t` (of 128, row-major over 16 row blocks × 8 column blocks) works on rows 1024·(t / 8) … and on columns
  2048·(t % 8) ….  Its row block, read through the window, is those rows of `a`; its column block is those columns of
  the transpose of `b`, that is those points of `b` with the coordinate axis first.  So the body's tile of expanded
  squared distances is `dist a b` at those rows and columns, and, by the block law of a folded minimum, the scratch
  column after point `t` holds, for each of the block's rows, the minimum of `dist` over all columns below
  2048·(t % 8 + 1) — by induction on the point: a first column step starts it from +∞, every later one advances it by
  one block of columns.
-/
import proofs.«163027_j54537494724893_1_alg».proof.Proof.Pieces
import proofs.«163027_j54537494724893_1_alg».proof.Proof.TileValue
import Idealize.ShloMosaic.Lib.ValueLayout
import Idealize.ShloMosaic.Lib.StableHlo.Run

set_option maxRecDepth 16384

noncomputable section

namespace Cert.NearestMean

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

/-- The two point arrays as the program is launched with them. -/
abbrev ptsA (c : Dev nD) : Pts := m ((c : Thread nD τ).loc main_arg0)
abbrev ptsB (c : Dev nD) : Pts := m ((c : Thread nD τ).loc main_arg1)

/-- The input blocks of a grid point, at their literal types. -/
abbrev xblk (c : Dev nD) (t : Fin cfg0.N) : Vec Ideal S1024x2 .f32 := iblk m c 0 t
abbrev yblk (c : Dev nD) (t : Fin cfg0.N) : Vec Ideal S2x2048 .f32 := iblk m c 1 t

/-- Row `p` of the row block of point `n`, and column `q` of its column block, in the arrays. -/
def rowOf (n : ℕ) (h : n < cfg0.N) (p : Fin 1024) : Fin 16384 :=
  ⟨1024 * (n / 8) + p.val, by have hN : cfg0.N = 128 := N_0; have := p.isLt; omega⟩
def colOf (n : ℕ) (q : Fin 2048) : Fin 16384 :=
  ⟨2048 * (n % 8) + q.val, by have := q.isLt; omega⟩

/-- The windows' block indices at a point: row block t / 8, column block t % 8. -/
theorem blockIdx : ∀ t : Fin cfg0.N,
    win0_0.index t (0 : Fin 2) = t.val / 8 ∧ win0_0.index t (1 : Fin 2) = 0
      ∧ win0_1.index t (0 : Fin 2) = 0 ∧ win0_1.index t (1 : Fin 2) = t.val % 8
      ∧ win0_2.index t (0 : Fin 2) = t.val / 8 ∧ win0_2.index t (1 : Fin 2) = 0 :=
  (by decide +kernel : ∀ t : Fin grid0.N, _)

/-- The array the second window stages is the transpose of `b`. -/
theorem colArray_eq (c : Dev nD) :
    (V m c main_v0 : S2x16384.Idx → EReal) = transpose S2x16384 [1, 0] (ptsB m c) transposes_S16384x2_S2x16384_1_0 := by
  show StableHlo.after hostOps0 (fun b => m (c, b)) (Proc.devRef .tc main_v0) = _
  after_results

/-- The row block at a point holds the rows of `a` the point works on. -/
theorem xblk_apply (c : Dev nD) (t : Fin cfg0.N) (p : Fin 1024) (k : Fin 2) :
    xblk m c t (ix2 p k) = ptsA m c (ix2 (rowOf t.val t.isLt p) k) := by
  have hi := blockIdx t
  show iblk m c 0 t (ix2 p k) = _
  unfold iblk
  rw [View.read_apply]
  show V m c main_arg0 _ = _
  rw [V_main_arg0]
  refine congrArg (ptsA m c) (funext fun a => Fin.ext ?_)
  match a with
  | ⟨0, _⟩ => show win0_0.index t 0 * 1024 + 1 * p.val = 1024 * (t.val / 8) + p.val; rw [hi.1]; omega
  | ⟨1, _⟩ => show win0_0.index t 1 * 2 + 1 * k.val = k.val; rw [hi.2.1]; omega

/-- The column block at a point holds, coordinate axis first, the points of `b` the point works on. -/
theorem yblk_apply (c : Dev nD) (t : Fin cfg0.N) (k : Fin 2) (q : Fin 2048) :
    yblk m c t (ix2 k q) = ptsB m c (ix2 (colOf t.val q) k) := by
  have hi := blockIdx t
  show iblk m c 1 t (ix2 k q) = _
  unfold iblk
  rw [View.read_apply]
  show V m c main_v0 _ = _
  rw [colArray_eq]
  refine Eq.trans ?_ (transpose_ix2_apply (ptsB m c) transposes_S16384x2_S2x16384_1_0 k (colOf t.val q))
  refine congrArg (transpose S2x16384 [1, 0] (ptsB m c) transposes_S16384x2_S2x16384_1_0) (funext fun a => Fin.ext ?_)
  match a with
  | ⟨0, _⟩ => show win0_1.index t 0 * 2 + 1 * k.val = k.val; rw [hi.2.2.1]; omega
  | ⟨1, _⟩ => show win0_1.index t 1 * 2048 + 1 * q.val = 2048 * (t.val % 8) + q.val; rw [hi.2.2.2.1]; omega

/-- One column step: from the minimum over the columns before the point's block to the minimum through it. -/
theorem step (c : Dev nD) (t : Fin cfg0.N) (acc : Vec Ideal S1024x1 .f32) (p : Fin 1024)
    (hacc : acc (ix2 p (0 : Fin 1))
      = minBelow (dist (ptsA m c) (ptsB m c) (rowOf t.val t.isLt p)) (2048 * (t.val % 8))) :
    k0_pay2 (xblk m c t) (yblk m c t) acc (ix2 p (0 : Fin 1))
      = minBelow (dist (ptsA m c) (ptsB m c) (rowOf t.val t.isLt p)) (2048 * (t.val % 8 + 1)) := by
  have h8 : t.val % 8 < 8 := Nat.mod_lt _ (by decide)
  rw [update_apply, hacc, minBelow_block _ (t.val % 8) (by omega)]
  refine congrArg (min _) ?_
  refine congrArg (fun f => Finset.fold min posInf f (Finset.univ : Finset (Fin 2048))) (funext fun q => ?_)
  exact tileDist_eq (ptsA m c) (ptsB m c) (xblk m c t) (yblk m c t) (rowOf t.val t.isLt p) (colOf t.val q) p q
    (fun k => xblk_apply m c t p k) (fun k => yblk_apply m c t k q)

/-- THE RUNNING MINIMUM: after point `n` the scratch column holds, at row `p` of the point's row block, the minimum of
    the squared distances to the columns below 2048·(n % 8 + 1). -/
theorem scratch_eq (c : Dev nD) : ∀ (n : ℕ) (h : n < cfg0.N) (p : Fin 1024),
    (outsAt0 m c n h).2 (ix2 p (0 : Fin 1))
      = minBelow (dist (ptsA m c) (ptsB m c) (rowOf n h p)) (2048 * (n % 8 + 1))
  | 0, h, p => by
    have h0 : (⟨0, h⟩ : Fin cfg0.N).val % 8 = 0 := rfl
    have h1 : ¬(⟨0, h⟩ : Fin cfg0.N).val % 8 = 7 := by show ¬(0 : ℕ) % 8 = 7; decide
    rw [outsAt0_A m c ⟨0, h⟩ h0 h1]
    dsimp only
    refine (congrFun (scratch_first (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) ((hcond0_0 ⟨0, h⟩).mpr h0)
      (fun hh => h1 ((hcond0_1 ⟨0, h⟩).mp hh)) (xblk m c ⟨0, h⟩) (yblk m c ⟨0, h⟩)) (ix2 p (0 : Fin 1))).trans ?_
    exact step m c ⟨0, h⟩ _ p ((start_apply p).trans (minBelow_zero _).symm)
  | n + 1, h, p => by
    have hN : cfg0.N = 128 := N_0
    by_cases h0 : (⟨n + 1, h⟩ : Fin cfg0.N).val % 8 = 0
    · have h1 : ¬(⟨n + 1, h⟩ : Fin cfg0.N).val % 8 = 7 := by omega
      rw [outsAt0_A m c ⟨n + 1, h⟩ h0 h1]
      dsimp only
      refine (congrFun (scratch_first (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) ((hcond0_0 ⟨n + 1, h⟩).mpr h0)
        (fun hh => h1 ((hcond0_1 ⟨n + 1, h⟩).mp hh)) (xblk m c ⟨n + 1, h⟩) (yblk m c ⟨n + 1, h⟩)) (ix2 p (0 : Fin 1))).trans ?_
      refine step m c ⟨n + 1, h⟩ _ p ((start_apply p).trans ?_)
      have e : 2048 * ((⟨n + 1, h⟩ : Fin cfg0.N).val % 8) = 0 := by rw [h0]
      rw [e]
      exact (minBelow_zero _).symm
    · have ih := scratch_eq c n (Nat.lt_of_succ_lt h) p
      have hrow : rowOf n (Nat.lt_of_succ_lt h) p = rowOf (n + 1) h p :=
        Fin.ext (by show 1024 * (n / 8) + p.val = 1024 * ((n + 1) / 8) + p.val; dsimp only at h0; omega)
      have hcol : 2048 * (n % 8 + 1) = 2048 * ((⟨n + 1, h⟩ : Fin cfg0.N).val % 8) := by dsimp only at h0 ⊢; omega
      have hprev : (outsAt0 m c ((⟨n + 1, h⟩ : Fin cfg0.N).val - 1)
            (Nat.lt_of_le_of_lt (Nat.sub_le _ _) (⟨n + 1, h⟩ : Fin cfg0.N).isLt)).2 (ix2 p (0 : Fin 1))
          = minBelow (dist (ptsA m c) (ptsB m c) (rowOf (n + 1) h p)) (2048 * ((⟨n + 1, h⟩ : Fin cfg0.N).val % 8)) := by
        rw [← hrow, ← hcol]
        exact ih
      by_cases h1 : (⟨n + 1, h⟩ : Fin cfg0.N).val % 8 = 7
      · rw [outsAt0_C m c ⟨n + 1, h⟩ h0 h1]
        dsimp only
        refine (congrFun (scratch_last (F := Ideal) c (grid0.coords ⟨n + 1, h⟩) (ms0_0 ⟨n + 1, h⟩) (hs0_0 ⟨n + 1, h⟩) (ms0_1 ⟨n + 1, h⟩)
          (hs0_1 ⟨n + 1, h⟩) (ms0_2 ⟨n + 1, h⟩) (hs0_2 ⟨n + 1, h⟩) scM0_0 (Memref.isWhole_whole _) (fun hh => h0 ((hcond0_0 ⟨n + 1, h⟩).mp hh))
          ((hcond0_1 ⟨n + 1, h⟩).mpr h1) (xblk m c ⟨n + 1, h⟩) (yblk m c ⟨n + 1, h⟩)
          (outsAt0 m c ((⟨n + 1, h⟩ : Fin cfg0.N).val - 1) (Nat.lt_of_le_of_lt (Nat.sub_le _ _) (⟨n + 1, h⟩ : Fin cfg0.N).isLt)).2)
          (ix2 p (0 : Fin 1))).trans ?_
        exact step m c ⟨n + 1, h⟩ _ p hprev
      · rw [outsAt0_B m c ⟨n + 1, h⟩ h0 h1]
        dsimp only
        refine (congrFun (scratch_middle (F := Ideal) c (grid0.coords ⟨n + 1, h⟩) (ms0_0 ⟨n + 1, h⟩) (hs0_0 ⟨n + 1, h⟩) (ms0_1 ⟨n + 1, h⟩)
          (hs0_1 ⟨n + 1, h⟩) (ms0_2 ⟨n + 1, h⟩) (hs0_2 ⟨n + 1, h⟩) scM0_0 (Memref.isWhole_whole _) (fun hh => h0 ((hcond0_0 ⟨n + 1, h⟩).mp hh))
          (fun hh => h1 ((hcond0_1 ⟨n + 1, h⟩).mp hh)) (xblk m c ⟨n + 1, h⟩) (yblk m c ⟨n + 1, h⟩)
          (outsAt0 m c ((⟨n + 1, h⟩ : Fin cfg0.N).val - 1) (Nat.lt_of_le_of_lt (Nat.sub_le _ _) (⟨n + 1, h⟩ : Fin cfg0.N).isLt)).2)
          (ix2 p (0 : Fin 1))).trans ?_
        exact step m c ⟨n + 1, h⟩ _ p hprev

end Cert.NearestMean

end
-- ==== Proof.FinalArray.lean ====
/-
  From the grid's last column steps to the program's result.

  The output array has one column of 16384 rows, tiled by 16 row blocks.  Block `i` is written back once, after the last
  column step of row block `i` (point 8·i + 7), and what is written is the scratch column as it then stands: the running
  minimum through all 8·2048 = 16384 columns, that is each row's minimum over every column.  The 16 written blocks cover
  the array, so it ends holding the column of row minima.  The operations after the call sum that column from zero —
  a sum over a 16384 × 1 array is the sum over its rows — and divide by the count: the mean of the row minima.
-/
import proofs.«163027_j54537494724893_1_alg».proof.Proof.RunningMin
import Idealize.ShloMosaic.Lib.Pipeline.Value
import Idealize.ShloMosaic.Lib.StableHlo.Run

set_option maxRecDepth 16384

noncomputable section

namespace Cert.NearestMean

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen

/-- The column of row minima, as a 16384 × 1 array. -/
def minCol (a b : Pts) : (⟨2, ![16384, 1]⟩ : Shape).Idx → EReal := fun i => rowMin a b ⟨(i 0).val, idx2_lt0 i⟩

theorem minCol_apply (a b : Pts) (r : Fin 16384) (u : Fin 1) : minCol a b (ix2 r u) = rowMin a b r := rfl

/-- Summed from zero over all its entries and divided by the count, the column gives the mean of the row minima. -/
theorem mean_of_minCol (a b : Pts) (h' : (⟨2, ![16384, 1]⟩ : Shape).ReducesTo [0, 1] (⟨0, ![]⟩ : Shape))
    (hu : 0 < (⟨0, ![]⟩ : Shape).numel) :
    Host.divf (F := Ideal) (Host.reduceAdd (F := Ideal) (minCol a b) (constant (F := Ideal) ⟨0, ![]⟩ .f32 0x00000000#32) h' hu)
        (constant (F := Ideal) ⟨0, ![]⟩ .f32 0x46800000#32)
      = meanMin a b := by
  funext i
  show Ideal.div (Ideal.hostReduceAdd h' (minCol a b) _ i) count = Ideal.div (zero + ∑ r : Fin 16384, rowMin a b r) count
  rw [Ideal.hostReduceAdd_total h' (fun bb => bb.elim0) (minCol a b) _ i, sum_idx2]
  refine congrArg (fun s => Ideal.div (_ + s) count) (Finset.sum_congr rfl fun r _ => ?_)
  rw [Fin.sum_univ_one]
  rfl

variable (m : (ℓ : Loc nD τ sig) → Buf (Elt Ideal) ℓ) (ρ : Dev nD → PrngReg)

/-- After a row block's last column step the body's column is the row minimum, at every row of the block. -/
theorem last_step_apply (c : Dev nD) (t : Fin cfg0.N) (h0 : ¬t.val % 8 = 0) (h7 : t.val % 8 = 7) (j : S1024x1.Idx) :
    k0_pay2 (xblk m c t) (yblk m c t)
        (outsAt0 m c (t.val - 1) (Nat.lt_of_le_of_lt (Nat.sub_le _ _) t.isLt)).2 j
      = rowMin (ptsA m c) (ptsB m c) (rowOf t.val t.isLt ⟨(j 0).val, idx2_lt0 j⟩) := by
  obtain ⟨p, u, rfl⟩ : ∃ (p : Fin 1024) (u : Fin 1), j = ix2 p u := ⟨j 0, j 1, eq_ix2 j⟩
  obtain rfl : u = 0 := Subsingleton.elim _ _
  have hN : cfg0.N = 128 := N_0
  have hlt : t.val - 1 < cfg0.N := Nat.lt_of_le_of_lt (Nat.sub_le _ _) t.isLt
  have ih := scratch_eq m c (t.val - 1) hlt p
  have hrow : rowOf (t.val - 1) hlt p = rowOf t.val t.isLt p :=
    Fin.ext (by show 1024 * ((t.val - 1) / 8) + p.val = 1024 * (t.val / 8) + p.val; omega)
  have hcol : 2048 * ((t.val - 1) % 8 + 1) = 2048 * (t.val % 8) := by omega
  rw [hrow, hcol] at ih
  refine (step m c t _ p ih).trans ?_
  have e : 2048 * (t.val % 8 + 1) = 16384 := by omega
  rw [e, minBelow_all]
  rfl

/-- The windows' blocks: an index of the output array is in point `t`'s block iff each coordinate is in the block's range. -/
theorem mem_outBlk (t : Fin cfg0.N) (i : S16384x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v1).slice (win0_2.rect t)).set ↔ _
  rw [View.set_slice_whole, Rect.mem_set_unit]
  exact Iff.rfl

/-- What a writing point writes back is its block of the column of row minima. -/
theorem flushed_eq (c : Dev nD) (t : Fin cfg0.N) (hf : (cfg0.win 2).flush t = true) :
    (dats m 0 c).flushed 2 t = ((cfg0.win 2).blk t).view.read (Elt Ideal) (minCol (ptsA m c) (ptsB m c)) := by
  have h7 : t.val % 8 = 7 := (flush0_2 t).mp hf
  have h0 : ¬t.val % 8 = 0 := by omega
  have hi := blockIdx t
  show (cfg0.win 2).cut (grid0.coords t) ((dats m 0 c).after 2 t) = _
  rw [after0_2, outsAt0_C m c t h0 h7]
  dsimp only
  rw [out_last (F := Ideal) c (grid0.coords t) (ms0_0 t) (hs0_0 t) (ms0_1 t) (hs0_1 t) (ms0_2 t) (hs0_2 t) scM0_0 (Memref.isWhole_whole _)
    (fun hh => h0 ((hcond0_0 t).mp hh)) ((hcond0_1 t).mpr h7) (iblk m c 0 t) (iblk m c 1 t)
    (outsAt0 m c (t.val - 1) (Nat.lt_of_le_of_lt (Nat.sub_le _ _) t.isLt)).2]
  have hv : ∀ j : S1024x1.Idx, k0_pay2 (iblk m c 0 t) (iblk m c 1 t)
        (outsAt0 m c (t.val - 1) (Nat.lt_of_le_of_lt (Nat.sub_le _ _) t.isLt)).2 j
      = rowMin (ptsA m c) (ptsB m c) (rowOf t.val t.isLt ⟨(j 0).val, idx2_lt0 j⟩) := fun j => last_step_apply m c t h0 h7 j
  generalize k0_pay2 (iblk m c 0 t) (iblk m c 1 t)
    (outsAt0 m c (t.val - 1) (Nat.lt_of_le_of_lt (Nat.sub_le _ _) t.isLt)).2 = v at hv ⊢
  have hG : ∀ i : S16384x1.Idx, minCol (ptsA m c) (ptsB m c) i
      = rowMin (ptsA m c) (ptsB m c) ⟨(i 0).val, idx2_lt0 i⟩ := fun i => rfl
  generalize minCol (ptsA m c) (ptsB m c) = G at hG ⊢
  funext j
  show v ((cfg0.win 2).xinj (grid0.coords t) j) = G (((cfg0.win 2).blk t).view.emb j)
  rw [hv, hG]
  refine congrArg (rowMin (ptsA m c) (ptsB m c)) (Fin.ext ?_)
  show 1024 * (t.val / 8) + (j 0).val = win0_2.index t (0 : Fin 2) * 1024 + 1 * (j 0).val
  rw [hi.2.2.2.2.1]
  omega

/-- Every row of the output array lies in the block some row block's last column step writes back. -/
theorem covered (i : S16384x1.Idx) :
    ∃ t : Fin cfg0.N, (cfg0.win 2).flush t = true ∧ i ∈ ((cfg0.win 2).blk t).view.set := by
  have hi0 : (i 0).val < 16384 := (i 0).isLt
  have hi1 : (i 1).val < 1 := (i 1).isLt
  have hN : cfg0.N = 128 := N_0
  have hlt : 8 * ((i 0).val / 1024) + 7 < cfg0.N := by omega
  have hb := blockIdx ⟨8 * ((i 0).val / 1024) + 7, hlt⟩
  refine ⟨⟨8 * ((i 0).val / 1024) + 7, hlt⟩, (flush0_2 _).mpr (by show (8 * ((i 0).val / 1024) + 7) % 8 = 7; omega), ?_⟩
  rw [mem_outBlk]
  intro a
  match a with
  | ⟨0, _⟩ =>
    show win0_2.index ⟨8 * ((i 0).val / 1024) + 7, hlt⟩ (0 : Fin 2) * 1024 ≤ (i 0).val
      ∧ (i 0).val < win0_2.index ⟨8 * ((i 0).val / 1024) + 7, hlt⟩ (0 : Fin 2) * 1024 + 1024
    rw [hb.2.2.2.2.1]
    show (8 * ((i 0).val / 1024) + 7) / 8 * 1024 ≤ (i 0).val ∧ (i 0).val < (8 * ((i 0).val / 1024) + 7) / 8 * 1024 + 1024
    omega
  | ⟨1, _⟩ =>
    show win0_2.index ⟨8 * ((i 0).val / 1024) + 7, hlt⟩ (1 : Fin 2) * 1 ≤ (i 1).val
      ∧ (i 1).val < win0_2.index ⟨8 * ((i 0).val / 1024) + 7, hlt⟩ (1 : Fin 2) * 1 + 1
    rw [hb.2.2.2.2.2]
    omega

/-- So the output array ends holding the column of row minima. -/
theorem final_col (c : Dev nD) : (dats m 0 c).arrAt 2 cfg0.N = minCol (ptsA m c) (ptsB m c) :=
  (dats m 0 c).arrAt_eq_of_cover 2 (minCol (ptsA m c) (ptsB m c)) (flushed_eq m c) covered

/-- The operations after the call turn that column into the mean of the row minima. -/
theorem result_eq (c : Dev nD) :
    Pipeline.afterTail₀ cfgs (dats m) 0 (V0 m) [hostOps1] c main_v3 = meanMin (ptsA m c) (ptsB m c) := by
  unfold Pipeline.afterTail₀
  show StableHlo.after hostOps1 _ (Proc.devRef .tc main_v3) = _
  after_results
  rw [(Pipeline.withArrays_arr spec0 launch0.win.arr_inj c _ _ 2).trans (final_col m c)]
  exact mean_of_minCol (ptsA m c) (ptsB m c) reducesTo_S16384x1_S_d0_1 h_S_

/-- The idealized kernel's run, read: the result at the mean of the row minima, the two arguments unchanged. -/
theorem kernel_run : θ_run defs (onTc (τ := τ) (main (F := Ideal))) ⟨m, fun _ => 0, ρ⟩ fun r => ∀ c : Dev nD,
      r.2.mem ((c.tc : Thread nD τ).loc main_v3) = meanMin (ptsA m c) (ptsB m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.NearestMean

end
-- ==== Proof.RefValue.lean ====
/-
  The reference program's value is the mean of the row minima of the expanded squared distances.

  Read one element at a time, the program forms, for each pair of a point `a r` and a point `b c`, the number
  |a r|² + |b c|² − 2·⟨a r, b c⟩: the two squared norms are two-term sums started from zero, the inner product is a
  two-term sum, and the layout operations (broadcasts, transposes) only move the row's norm to every column and the
  column's norm to every row.  That is `dist a b r c`.  The minimum over axis 1, with a commutative and associative
  body, is the fold of `min` from +∞ over the columns: `rowMin a b r`.  The last two operations sum the 16384 row minima
  from zero and divide by the count, which is `meanMin a b` once the sum over one-coordinate indices is written as a
  sum over the coordinate.  Only 0 + x = x is used of the arithmetic; nothing needs the entries to be finite.
-/
import proofs.«163027_j54537494724893_1_alg».proof.Proof.Gen.ReferenceIdeal.Read
import proofs.«163027_j54537494724893_1_alg».proof.Proof.Spec
import Idealize.ShloMosaic.Lib.ValueIdx
import Idealize.ShloMosaic.PureOps.Ideal.Laws
import Idealize.ShloMosaic.PureOps.Reduce

noncomputable section

namespace Cert.NearestMean

open Cert.ReferenceIdeal Cert.ReferenceIdeal.Gen Cert.ReferenceIdeal.Read Idealize.ShloMosaic Idealize.ShloMosaic.ValueIdx

/-! ## The index maps at explicit coordinates -/

/-- Term `k` of row `r`'s sum of squares of `a` sits at `(r, k)`. -/
theorem idx_v1 (r : Fin 16384) (k : Fin 2) : idx_main_v1 (ix1 r) k = ix2 r k :=
  funext fun d => Fin.ext (by match d with | ⟨0, _⟩ => rfl | ⟨1, _⟩ => rfl)

/-- Term `k` of row `r`'s sum of squares of `b` sits at `(r, k)`. -/
theorem idx_v4 (r : Fin 16384) (k : Fin 2) : idx_main_v4 (ix1 r) k = ix2 r k :=
  funext fun d => Fin.ext (by match d with | ⟨0, _⟩ => rfl | ⟨1, _⟩ => rfl)

/-- The first norm, broadcast along the columns, is read at the entry's row. -/
theorem idx_row (r c : Fin 16384) : idx_main_v2 (idx_main_v7 (ix2 r c)) = ix1 r :=
  funext fun d => Fin.ext (by match d with | ⟨0, _⟩ => rfl)

/-- The second norm, transposed and broadcast along the rows, is read at the entry's column. -/
theorem idx_col (r c : Fin 16384) : idx_main_v5 (idx_main_v6 (idx_main_v8 (ix2 r c))) = ix1 c :=
  funext fun d => Fin.ext (by match d with | ⟨0, _⟩ => rfl)

/-- The inner product's left factor `k` at entry `(r, c)` is `a` at `(r, k)`. -/
theorem idx_lhs (r c : Fin 16384) (k : Fin 2) : lidx_main_v11 (ix2 r c) k = ix2 r k :=
  funext fun d => Fin.ext (by match d with | ⟨0, _⟩ => rfl | ⟨1, _⟩ => rfl)

/-- Its right factor `k`, read through the transpose, is `b` at `(c, k)`. -/
theorem idx_rhs (r c : Fin 16384) (k : Fin 2) : idx_main_v10 (ridx_main_v11 (ix2 r c) k) = ix2 c k :=
  funext fun d => Fin.ext (by match d with | ⟨0, _⟩ => rfl | ⟨1, _⟩ => rfl)

/-! ## The squared norms -/

/-- Row `r` of the first sum of squares: 0 + (a(r,0)² + a(r,1)²) = |a r|². -/
theorem v1_eq (a : Pts) (r : Fin 16384) : val_main_v1 (F := Ideal) a (ix1 r) = sqNorm a r := by
  rw [val_main_v1_apply, Fin.sum_univ_two, val_main_cst_apply, val_main_v0_apply, val_main_v0_apply,
    idx_v1, idx_v1, Ideal.ofBits_def, Ideal.ofBits_zero_f32, zero_add, Ideal.mulf_def, Ideal.mulf_def]
  rfl

/-- Row `c` of the second sum of squares: |b c|². -/
theorem v4_eq (b : Pts) (c : Fin 16384) : val_main_v4 (F := Ideal) b (ix1 c) = sqNorm b c := by
  rw [val_main_v4_apply, Fin.sum_univ_two, val_main_cst_0_apply, val_main_v3_apply, val_main_v3_apply,
    idx_v4, idx_v4, Ideal.ofBits_def, Ideal.ofBits_zero_f32, zero_add, Ideal.mulf_def, Ideal.mulf_def]
  rfl

/-! ## The matrix entry -/

/-- Entry `(r, c)` of the 16384 × 16384 matrix is (|a r|² + |b c|²) − 2·(a(r,0)·b(c,0) + a(r,1)·b(c,1)). -/
theorem v14_eq (a b : Pts) (r c : Fin 16384) : val_main_v14 (F := Ideal) a b (ix2 r c) = dist a b r c := by
  rw [val_main_v14_apply, val_main_v9_apply, val_main_v13_apply, val_main_v7_apply, val_main_v2_apply,
    val_main_v8_apply, val_main_v6_apply, val_main_v5_apply, val_main_v12_apply, val_main_cst_1_apply,
    val_main_v11_apply, Fin.sum_univ_two, val_main_v10_apply, val_main_v10_apply,
    idx_row, idx_col, idx_lhs, idx_lhs, idx_rhs, idx_rhs, v1_eq, v4_eq,
    Ideal.subf_def, Ideal.addf_def, Ideal.mulf_def, Ideal.ofBits_def]
  rfl

/-! ## The row minimum -/

/-- The minimum over axis 1 at row `r`: `min` is commutative and associative, so the reduction is the fold of `min`
    from +∞ over the columns `c`, and the index over `r` with `c` inserted on axis 1 is `(r, c)`. -/
theorem v15_eq (a b : Pts) (r : Fin 16384) : val_main_v15 (F := Ideal) a b (ix1 r) = rowMin a b r := by
  have h : S16384x16384.Reduces [1] S16384 := by decide
  have e : (val_main_v14 (F := Ideal) a b ∘ h.lift (ix1 r)) = dist a b r := funext fun (c : Fin 16384) => by
    show val_main_v14 (F := Ideal) a b (h.lift (ix1 r) c) = dist a b r c
    rw [show h.lift (ix1 r) c = ix2 r c from
      funext fun d => Fin.ext (by match d with | ⟨0, _⟩ => rfl | ⟨1, _⟩ => rfl)]
    exact v14_eq a b r c
  unfold val_main_v15
  rw [Host.reduce_eq_fold_single FloatOps.minimumf _ _ reducesTo_S16384x16384_S16384_d1 h h_S_, e]
  rfl

/-! ## The mean -/

/-- A one-coordinate index is its coordinate. -/
def rowIdx : Fin 16384 ≃ (⟨1, ![16384]⟩ : Shape).Idx where
  toFun := ix1
  invFun j := j 0
  left_inv _ := rfl
  right_inv j := (eq_ix1 j).symm

/-- The reference's result: (0 + Σ_r min_c dist(r, c)) / 16384. -/
theorem reference_eq (a b : Pts) : Cert.ReferenceIdeal.Read.val_main_v17 (F := Ideal) a b = meanMin a b := by
  funext i
  rw [val_main_v17_apply, val_main_v16_apply, val_main_cst_3_apply, val_main_cst_4_apply,
    Ideal.hostDivf_def, Ideal.ofBits_def, Ideal.ofBits_def]
  unfold meanMin
  rw [Fintype.sum_equiv rowIdx (rowMin a b) (val_main_v15 (F := Ideal) a b) fun r => (v15_eq a b r).symm]

end Cert.NearestMean

end
-- ==== Proof.lean ====
/-
  Mean nearest-neighbour squared distance: a column-tiled kernel against the one-pass formula.

  Both programs take two arrays `a`, `b` of 16384 points of the plane and return one number: for each point of `a` the
  smallest expanded squared distance  |a r|² + |b c|² − 2·⟨a r, b c⟩  to a point of `b`, averaged over the 16384 points of `a`.

  The reference forms the whole 16384 × 16384 matrix and takes each row's minimum in one pass from +∞.  The kernel walks
  a 16 × 8 grid of 1024 × 2048 tiles; within a row block it keeps a running per-row minimum across the 8 column steps,
  reset to +∞ at the first and copied out after the last, and the mean is taken afterwards exactly as the reference takes
  it.  At the extended reals the two agree because
    * the norms and inner products differ only in how a two-term sum is grouped and whether it starts from zero;
    * a minimum folded from +∞ over 16384 columns is the minimum, block after block of 2048 columns, of the running
      value and the block's own minimum folded from +∞ (a fold of `min` is determined by its lower bounds);
    * the sum of a 16384 × 1 column is the sum over its rows.
  None of this needs the entries to be finite, so the precondition is never opened.

  The kernel's idealization rewrote nothing, so that conjunct is trivial; the word-level kernel's and the idealized
  kernel's frames are the generated ones, and the reference's frame is its generated run with the result dropped.
-/
import proofs.«163027_j54537494724893_1_alg».proof.Defs
import proofs.«163027_j54537494724893_1_alg».proof.Proof.Gen.Kernel
import proofs.«163027_j54537494724893_1_alg».proof.Proof.Gen.Kernel.Frame
import proofs.«163027_j54537494724893_1_alg».proof.Proof.Gen.KernelIdeal
import proofs.«163027_j54537494724893_1_alg».proof.Proof.Gen.KernelIdeal.Frame
import proofs.«163027_j54537494724893_1_alg».proof.Proof.Gen.ReferenceIdeal
import proofs.«163027_j54537494724893_1_alg».proof.Proof.Gen.ReferenceIdeal.Run
import proofs.«163027_j54537494724893_1_alg».proof.Proof.Gen.ReferenceIdeal.Read
import proofs.«163027_j54537494724893_1_alg».proof.Proof.Gen.Pre_finite_inputs
import proofs.«163027_j54537494724893_1_alg».proof.Proof.FinalArray
import proofs.«163027_j54537494724893_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the mean of the row minima of the same two arrays. -/
theorem algebraic : Cert.algebraic_KernelIdeal_ReferenceIdeal := by
  intro m ρ m' ρ' _ hagree
  refine ⟨fun c => Cert.NearestMean.meanMin (Cert.NearestMean.ptsA m c) (Cert.NearestMean.ptsB m c),
    Cert.NearestMean.kernel_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq (F := Ideal) _ _).trans ?_
  refine (Cert.NearestMean.reference_eq _ _).trans ?_
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
